-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S100000x128 : Shape := ⟨2, ![100000, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg0 : IVec S64x2048 32) (main_v13 : IVec S_ 1) (main_v15 : IVec S64x2048 1) (main_c_5 : IVec S_ 1) : IVec S_ 1 :=
  let main_v16 : IVec S_ 1 := (fun x v => Host.reduce IntOp.andi x v reducesTo_S64x2048_S_d0_1 h_S_) main_v15 main_c_5
  let main_v17 : IVec S_ 1 := andi main_v13 main_v16
  let main_c_6 : IVec S_ 32 := constantI S_ 32 100000#32
  let main_v18 : IVec S64x2048 32 := broadcastInDim S64x2048 ![] bcast_S_S64x2048 main_c_6
  let main_v19 : IVec S64x2048 1 := cmpi .slt main_arg0 main_v18
  let main_c_7 : IVec S_ 1 := constantI S_ 1 1#1
  let main_v20 : IVec S_ 1 := (fun x v => Host.reduce IntOp.andi x v reducesTo_S64x2048_S_d0_1 h_S_) main_v19 main_c_7
  let main_v21 : IVec S_ 1 := andi main_v17 main_v20
  main_v21

def fn {F : FTy → Type} [FloatOps F] (main_arg0 : IVec S64x2048 32) (main_arg1 : FVec F S100000x128 .f32) (main_arg2 : FVec F S128 .f32) (main_arg3 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 4294867296#32
  let main_v14 : IVec S64x2048 32 := broadcastInDim S64x2048 ![] bcast_S_S64x2048 main_c_4
  let main_v15 : IVec S64x2048 1 := cmpi .sge main_arg0 main_v14
  let main_c_5 : IVec S_ 1 := constantI S_ 1 1#1
  fn_part1 (F := F) main_arg0 main_v13 main_v15 main_c_5
-- ==== Kernel.lean ====
abbrev S64x2048 : Shape := ⟨2, ![64, 2048]⟩
abbrev S100000x128 : Shape := ⟨2, ![100000, 128]⟩
abbrev S128 : Shape := ⟨1, ![128]⟩
abbrev S_ : Shape := ⟨0, ![]⟩
abbrev S64x2048x1 : Shape := ⟨3, ![64, 2048, 1]⟩
abbrev S1 : Shape := ⟨1, ![1]⟩
abbrev S1x1x1 : Shape := ⟨3, ![1, 1, 1]⟩
abbrev S64x2048x128 : Shape := ⟨3, ![64, 2048, 128]⟩
abbrev S64x256x128 : Shape := ⟨3, ![64, 256, 128]⟩
abbrev S64x256 : Shape := ⟨2, ![64, 256]⟩
abbrev S64x256x1 : Shape := ⟨3, ![64, 256, 1]⟩
abbrev S1x1x128 : Shape := ⟨3, ![1, 1, 128]⟩

abbrev nBuf : Space → Nat
  | .hbm => 28
  | .vmem => 6
  | .smem => 0
  | _ => 0

abbrev bufTy : (tb : Table) → Fin (tcTables nBuf tb) → BufTy
  | .hbm, ⟨0, _⟩ => ⟨S64x2048, .i32⟩
  | .hbm, ⟨1, _⟩ => ⟨S100000x128, .f32⟩
  | .hbm, ⟨2, _⟩ => ⟨S128, .f32⟩
  | .hbm, ⟨3, _⟩ => ⟨S128, .f32⟩
  | .hbm, ⟨4, _⟩ => ⟨S_, .i32⟩
  | .hbm, ⟨5, _⟩ => ⟨S64x2048, .i32⟩
  | .hbm, ⟨6, _⟩ => ⟨S64x2048, .i1⟩
  | .hbm, ⟨7, _⟩ => ⟨S_, .i32⟩
  | .hbm, ⟨8, _⟩ => ⟨S64x2048, .i32⟩
  | .hbm, ⟨9, _⟩ => ⟨S64x2048, .i32⟩
  | .hbm, ⟨10, _⟩ => ⟨S64x2048, .i32⟩
  | .hbm, ⟨11, _⟩ => ⟨S64x2048x1, .i32⟩
  | .hbm, ⟨12, _⟩ => ⟨S1, .i32⟩
  | .hbm, ⟨13, _⟩ => ⟨S_, .i32⟩
  | .hbm, ⟨14, _⟩ => ⟨S64x2048x1, .i32⟩
  | .hbm, ⟨15, _⟩ => ⟨S64x2048x1, .i1⟩
  | .hbm, ⟨16, _⟩ => ⟨S1x1x1, .i32⟩
  | .hbm, ⟨17, _⟩ => ⟨S64x2048x1, .i32⟩
  | .hbm, ⟨18, _⟩ => ⟨S64x2048x1, .i1⟩
  | .hbm, ⟨19, _⟩ => ⟨S64x2048x1, .i1⟩
  | .hbm, ⟨20, _⟩ => ⟨S_, .i1⟩
  | .hbm, ⟨21, _⟩ => ⟨S64x2048, .i1⟩
  | .hbm, ⟨22, _⟩ => ⟨S64x2048x128, .f32⟩
  | .hbm, ⟨23, _⟩ => ⟨S64x2048x128, .i1⟩
  | .hbm, ⟨24, _⟩ => ⟨S_, .f32⟩
  | .hbm, ⟨25, _⟩ => ⟨S64x2048x128, .f32⟩
  | .hbm, ⟨26, _⟩ => ⟨S64x2048x128, .f32⟩
  | .hbm, ⟨27, _⟩ => ⟨S64x2048x128, .f32⟩
  | .local _ .vmem, ⟨0, _⟩ => ⟨S64x256x128, .f32⟩
  | .local _ .vmem, ⟨1, _⟩ => ⟨S64x256x128, .f32⟩
  | .local _ .vmem, ⟨2, _⟩ => ⟨S128, .f32⟩
  | .local _ .vmem, ⟨3, _⟩ => ⟨S128, .f32⟩
  | .local _ .vmem, ⟨4, _⟩ => ⟨S64x256x128, .f32⟩
  | .local _ .vmem, ⟨5, _⟩ => ⟨S64x256x128, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S_S64x2048x1 : S_.BroadcastsInDim S64x2048x1 (![] : Fin 0 → Fin S64x2048x1.rank)
  bcast_S1_S1x1x1_2 : S1.BroadcastsInDim S1x1x1 (![2] : Fin 1 → Fin S1x1x1.rank)
  bcast_S1x1x1_S64x2048x1_0_1_2 : S1x1x1.BroadcastsInDim S64x2048x1 (![0, 1, 2] : Fin 3 → Fin S64x2048x1.rank)
  reducesTo_S64x2048x1_S64x2048_d2 : S64x2048x1.ReducesTo [2] S64x2048
  h_S_ : 0 < S_.numel
  bcast_S64x2048_S64x2048x128_0_1 : S64x2048.BroadcastsInDim S64x2048x128 (![0, 1] : Fin 2 → Fin S64x2048x128.rank)
  bcast_S_S64x2048x128 : S_.BroadcastsInDim S64x2048x128 (![] : Fin 0 → Fin S64x2048x128.rank)
  inb_S64x256x128_S64x256x128_0_0_0 : ∀ a, (![0, 0, 0] : Fin 3 → Nat) a + S64x256x128.size a ≤ S64x256x128.size a
  h_S64x256x128 : 0 < S64x256x128.numel
  shapeCasts_S64x256x128_S64x256x128 : S64x256x128.ShapeCasts S64x256x128
  reduces_S64x256x128_S64x256 : S64x256x128.Reduces [2] S64x256
  shapeCasts_S64x256_S64x256x1 : S64x256.ShapeCasts S64x256x1
  broadcasts_S64x256x1_S64x256x128 : S64x256x1.Broadcasts S64x256x128
  inb_S128_S128_0 : ∀ a, (![0] : Fin 1 → Nat) a + S128.size a ≤ S128.size a
  h_S128 : 0 < S128.numel
  shapeCasts_S128_S1x1x128 : S128.ShapeCasts S1x1x128
  broadcasts_S1x1x128_S64x256x128 : S1x1x128.Broadcasts S64x256x128
  gather_S100000x128_S64x2048x1_S64x2048x128_2_0_n_n_0_2_1128_wf : GatherDims.WF S100000x128 S64x2048x1 S64x2048x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x128.size a ≤ S64x2048x128.size a
  hwx0_0 : ∀ i : grid0.Coords, EltTy.bits .f32 = 32 ∨ (Rect.block (s := S64x2048x128) S64x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256x128.size a ≤ S64x2048x128.size a
  hwx0_3 : ∀ i : grid0.Coords, EltTy.bits .f32 = 32 ∨ (Rect.block (s := S64x2048x128) S64x256x128.size (cc0_transform_3 i) (hinb0_3 i)).WholeWords (EltTy.packing .f32)

variable [Facts₀]

def gather_S100000x128_S64x2048x1_S64x2048x128_2_0_n_n_0_2_1128 : GatherDims S100000x128 S64x2048x1 S64x2048x128 where
  offsetDims := [2]
  collapsedSliceDims := [0]
  operandBatchingDims := []
  startIndicesBatchingDims := []
  startIndexMap := [0]
  indexVectorDim := 2
  sliceSizes := ![1, 128]
  wf := gather_S100000x128_S64x2048x1_S64x2048x128_2_0_n_n_0_2_1128_wf

abbrev win0_0 : Pipeline.Window sig grid0 :=
  Pipeline.Window.ofSpec (Memref.whole main_v0) S64x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048 : Shape := ⟨2, ![64, 2048]⟩
abbrev S100000x128 : Shape := ⟨2, ![100000, 128]⟩
abbrev S128 : Shape := ⟨1, ![128]⟩
abbrev S_ : Shape := ⟨0, ![]⟩
abbrev S64x2048x1 : Shape := ⟨3, ![64, 2048, 1]⟩
abbrev S64x2048x128 : Shape := ⟨3, ![64, 2048, 128]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S100000x128, .f32⟩
  | .hbm, ⟨2, _⟩ => ⟨S128, .f32⟩
  | .hbm, ⟨3, _⟩ => ⟨S128, .f32⟩
  | .hbm, ⟨4, _⟩ => ⟨S_, .i32⟩
  | .hbm, ⟨5, _⟩ => ⟨S64x2048, .i32⟩
  | .hbm, ⟨6, _⟩ => ⟨S64x2048, .i1⟩
  | .hbm, ⟨7, _⟩ => ⟨S_, .i32⟩
  | .hbm, ⟨8, _⟩ => ⟨S64x2048, .i32⟩
  | .hbm, ⟨9, _⟩ => ⟨S64x2048, .i32⟩
  | .hbm, ⟨10, _⟩ => ⟨S64x2048, .i32⟩
  | .hbm, ⟨11, _⟩ => ⟨S64x2048x1, .i32⟩
  | .hbm, ⟨12, _⟩ => ⟨S64x2048x128, .f32⟩
  | .hbm, ⟨13, _⟩ => ⟨S_, .f32⟩
  | .hbm, ⟨14, _⟩ => ⟨S64x2048, .f32⟩
  | .hbm, ⟨15, _⟩ => ⟨S64x2048x1, .f32⟩
  | .hbm, ⟨16, _⟩ => ⟨S_, .f32⟩
  | .hbm, ⟨17, _⟩ => ⟨S64x2048x1, .f32⟩
  | .hbm, ⟨18, _⟩ => ⟨S64x2048x1, .f32⟩
  | .hbm, ⟨19, _⟩ => ⟨S64x2048x128, .f32⟩
  | .hbm, ⟨20, _⟩ => ⟨S64x2048x128, .f32⟩
  | .hbm, ⟨21, _⟩ => ⟨S64x2048x128, .f32⟩
  | .hbm, ⟨22, _⟩ => ⟨S_, .f32⟩
  | .hbm, ⟨23, _⟩ => ⟨S64x2048, .f32⟩
  | .hbm, ⟨24, _⟩ => ⟨S64x2048x1, .f32⟩
  | .hbm, ⟨25, _⟩ => ⟨S_, .f32⟩
  | .hbm, ⟨26, _⟩ => ⟨S64x2048x1, .f32⟩
  | .hbm, ⟨27, _⟩ => ⟨S64x2048x1, .f32⟩
  | .hbm, ⟨28, _⟩ => ⟨S64x2048x128, .f32⟩
  | .hbm, ⟨29, _⟩ => ⟨S64x2048x128, .f32⟩
  | .hbm, ⟨30, _⟩ => ⟨S_, .f32⟩
  | .hbm, ⟨31, _⟩ => ⟨S64x2048x1, .f32⟩
  | .hbm, ⟨32, _⟩ => ⟨S64x2048x1, .f32⟩
  | .hbm, ⟨33, _⟩ => ⟨S64x2048x1, .f32⟩
  | .hbm, ⟨34, _⟩ => ⟨S64x2048x128, .f32⟩
  | .hbm, ⟨35, _⟩ => ⟨S64x2048x128, .f32⟩
  | .hbm, ⟨36, _⟩ => ⟨S1x1x128, .f32⟩
  | .hbm, ⟨37, _⟩ => ⟨S64x2048x128, .f32⟩
  | .hbm, ⟨38, _⟩ => ⟨S64x2048x128, .f32⟩
  | .hbm, ⟨39, _⟩ => ⟨S1x1x128, .f32⟩
  | .hbm, ⟨40, _⟩ => ⟨S64x2048x128, .f32⟩
  | .hbm, ⟨41, _⟩ => ⟨S64x2048x128, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  reducesTo_S64x2048x128_S64x2048_d2 : S64x2048x128.ReducesTo [2] S64x2048
  h_S_ : 0 < S_.numel
  bcast_S_S64x2048x1 : S_.BroadcastsInDim S64x2048x1 (![] : Fin 0 → Fin S64x2048x1.rank)
  bcast_S64x2048x1_S64x2048x128_0_1_2 : S64x2048x1.BroadcastsInDim S64x2048x128 (![0, 1, 2] : Fin 3 → Fin S64x2048x128.rank)
  bcast_S128_S1x1x128_2 : S128.BroadcastsInDim S1x1x128 (![2] : Fin 1 → Fin S1x1x128.rank)
  bcast_S1x1x128_S64x2048x128_0_1_2 : S1x1x128.BroadcastsInDim S64x2048x128 (![0, 1, 2] : Fin 3 → Fin S64x2048x128.rank)
  gather_S100000x128_S64x2048x1_S64x2048x128_2_0_n_n_0_2_1128_wf : GatherDims.WF S100000x128 S64x2048x1 S64x2048x128 [2] [0] [] [0] [] 2 ![1, 128]

variable [Facts₀]

def gather_S100000x128_S64x2048x1_S64x2048x128_2_0_n_n_0_2_1128 : GatherDims S100000x128 S64x2048x1 S64x2048x128 where
  offsetDims := [2]
  collapsedSliceDims := [0]
  operandBatchingDims := []
  startIndicesBatchingDims := []
  startIndexMap := [0]
  indexVectorDim := 2
  sliceSizes := ![1, 128]
  wf := gather_S100000x128_S64x2048x1_S64x2048x128_2_0_n_n_0_2_1128_wf

class Facts : Prop extends Facts₀ where

variable [Facts]
-- ==== Proof.RowNorm.lean ====
/-
  Layer normalisation of one row of 128 extended reals, and of a [64, 2048, 128] array row by row.

  For a row `v`, `rowMean v = (∑ₖ v k) / 128` and `rowVar v = (∑ₖ (v k - rowMean v)²) / 128` (the biased variance), and
  the normalised row at lane `d`, scaled by `g` and shifted by `b`, is
  `(v d - rowMean v) · (rowVar v + ε)^(-1/2) · g + b`. The divisor 128 and the offset ε are the two float words both
  programs carry, read as the extended reals they denote; every operation is the extended reals' own, so the
  definition is total: a row holding an infinity has a value here too, the same on both sides.
  The array form normalises the row `(b, s, ·)` of the array and reads scale and shift at the lane.
-/
import Idealize.ShloMosaic.PureOps.Ideal
import Idealize.ShloMosaic.PureOps.Ideal.Laws
import Idealize.ShloMosaic.Lib.ValueIdx

noncomputable section

open scoped BigOperators

namespace Cert.RowNorm

open Idealize.ShloMosaic Idealize.ShloMosaic.ValueIdx

/-- The lane count 128 as the f32 word the programs divide by. -/
abbrev lanes : EReal := Ideal.ofBits .f32 0x43000000#32

/-- The variance offset ε, the f32 word nearest 1e-5, which both programs add before the inverse square root. -/
abbrev eps : EReal := Ideal.ofBits .f32 0x3727C5AC#32

/-- The mean of a row: the sum of its 128 lanes over 128. -/
def rowMean (v : Fin 128 → EReal) : EReal := Ideal.div (∑ k : Fin 128, v k) lanes

/-- The biased variance of a row: the mean of the squared deviations from the row's mean. -/
def rowVar (v : Fin 128 → EReal) : EReal :=
  Ideal.div (∑ k : Fin 128, (v k - rowMean v) * (v k - rowMean v)) lanes

/-- The normalised row at lane `d`: deviation from the mean times the inverse square root of variance plus ε,
    scaled by `g` and shifted by `b`. -/
def layerNorm (v : Fin 128 → EReal) (g b : EReal) (d : Fin 128) : EReal :=
  (v d - rowMean v) * Ideal.rsqrt (rowVar v + eps) * g + b

/-- The [64, 2048, 128] array of rows. -/
abbrev SArr : Shape := ⟨3, ![64, 2048, 128]⟩
/-- A [128] vector of per-lane scales or shifts. -/
abbrev SVec : Shape := ⟨1, ![128]⟩

/-- Row `(b, s)` of a [64, 2048, 128] array, as a function of the lane. -/
def row (E : SArr.Idx → EReal) (b : Fin 64) (s : Fin 2048) : Fin 128 → EReal := fun k => E (ix3 b s k)

/-- The whole array normalised row by row: entry `(b, s, d)` is row `(b, s)` normalised, at lane `d`, with the
    scale and the shift of lane `d`. -/
def layerNormRows (E : SArr.Idx → EReal) (γ β : SVec.Idx → EReal) : SArr.Idx → EReal :=
  fun i => layerNorm (row E (i 0) (i 1)) (γ (ix1 (n := 128) (i 2))) (β (ix1 (n := 128) (i 2))) (i 2)

/-- Normalising depends on the row only through its entries. -/
theorem layerNormRows_congr {E E' : SArr.Idx → EReal} (h : E = E') (γ β : SVec.Idx → EReal) :
    layerNormRows E γ β = layerNormRows E' γ β := by rw [h]

end Cert.RowNorm

end
-- ==== Proof.KernelBlock.lean ====
/-
  What the kernel body leaves in one output block, as mathematics.

  The body loads a [64, 256, 128] block `P0` of embedded rows and the two [128] vectors `P1` (scale) and `P2`
  (shift), and stores one [64, 256, 128] block. Entry `(b, r, d)` of the stored block is row `(b, r, ·)` of `P0`
  layer-normalised (`Cert.RowNorm.layerNorm`), at lane `d`, with scale `P1 d` and shift `P2 d`:

    `E3 P0 P1 P2 (b, r, d) = (P0 (b,r,d) - μ) · (σ² + ε)^(-1/2) · P1 d + P2 d`,
    `μ = (∑ₖ P0 (b,r,k)) / 128`,  `σ² = (∑ₖ (P0 (b,r,k) - μ)²) / 128`.

  The two lane sums are the body's two `multi_reduction <add>` over the last axis, which at the extended reals are
  plain finite sums (the accumulator word is the sum's neutral element); the per-row mean is kept as a [64, 256, 1]
  column and spread back over the 128 lanes, which reads, at `(b, r, k)`, the mean of row `(b, r)`. No law of
  arithmetic is used: the two sides are the same expression once each layout operation is read at an index.
-/
import proofs.«415692_j64450279244454_3_alg».proof.Proof.Gen.KernelIdeal.Value
import proofs.«415692_j64450279244454_3_alg».proof.Proof.RowNorm
import Idealize.ShloMosaic.Lib.Pipeline.Value
import Idealize.ShloMosaic.PureOps.Ideal.Laws

noncomputable section

open scoped BigOperators

namespace Cert.KernelBlock

open Idealize.ShloMosaic Idealize.ShloMosaic.ValueIdx Cert.KernelIdeal Cert.KernelIdeal.Gen Cert.RowNorm

/-- A lane sum of a [64, 256, 128] block at row `(b, r)`: the sum over the 128 lanes of the row's entries. -/
theorem laneSum (P : S64x256x128.Idx → EReal) (h : S64x256x128.Reduces [2] S64x256) (hφ : FKind.Formats .f32)
    (hacc : (0x00000000#32 : BitVec 32) = FKind.add.neutral .f32 hφ) (b : Fin 64) (r : Fin 256) :
    multiReduction (F := Ideal) .add [2] S64x256 P 0x00000000#32 h hφ hacc (ix2 b r)
      = ∑ k : Fin 128, P (ix3 b r k) := by
  rw [Ideal.multiReduction_add_single]
  refine Finset.sum_congr rfl fun k _ => congrArg P (funext fun a => Fin.ext ?_)
  match a with | ⟨0, _⟩ => rfl | ⟨1, _⟩ => rfl | ⟨2, _⟩ => rfl

/-- A per-row column [64, 256, 1] spread over the 128 lanes reads, at `(b, r, k)`, the column's entry of row `(b, r)`. -/
theorem spread_apply (u : S64x256x1.Idx → EReal) (h : S64x256x1.Broadcasts S64x256x128) (b : Fin 64) (r : Fin 256)
    (k : Fin 128) : broadcastTo S64x256x128 u h (ix3 b r k) = u (ix3 b r (0 : Fin 1)) :=
  broadcastTo_apply u h (ix3 b r k) (ix3 b r (0 : Fin 1)) (fun a => match a with
    | ⟨0, _⟩ => by show b.val = if (64 : Nat) = 1 then 0 else b.val; rw [if_neg (by decide)]
    | ⟨1, _⟩ => by show r.val = if (256 : Nat) = 1 then 0 else r.val; rw [if_neg (by decide)]
    | ⟨2, _⟩ => by show 0 = if (1 : Nat) = 1 then 0 else k.val; rw [if_pos rfl])

/-- A per-row value [64, 256] kept as a column [64, 256, 1] reads, at `(b, r, 0)`, the value of row `(b, r)`: the two
    indices have the same row-major position. -/
theorem column_apply (w : S64x256.Idx → EReal) (h : S64x256.ShapeCasts S64x256x1) (b : Fin 64) (r : Fin 256) :
    shapeCast S64x256x1 w h (ix3 b r (0 : Fin 1)) = w (ix2 b r) :=
  shapeCast_apply w h (ix3 b r (0 : Fin 1)) (ix2 b r) (by
    rw [Shape.rowMajor_val_two, Shape.rowMajor_val_three]
    show b.val * 256 + r.val = (b.val * 256 + r.val) * 1 + 0; omega)

/-- The block minus its row means, at `(b, r, k)`: the entry minus the mean of row `(b, r)`. -/
theorem centred_apply (P : S64x256x128.Idx → EReal) (hr : S64x256x128.Reduces [2] S64x256) (hφ : FKind.Formats .f32)
    (hacc : (0x00000000#32 : BitVec 32) = FKind.add.neutral .f32 hφ) (h1 : S64x256.ShapeCasts S64x256x1)
    (h2 : S64x256x1.Broadcasts S64x256x128) (b : Fin 64) (r : Fin 256) (k : Fin 128) :
    (subf (F := Ideal) (φ := .f32) P (broadcastTo S64x256x128 (divf (F := Ideal) (φ := .f32) (shapeCast S64x256x1
        (multiReduction (F := Ideal) .add [2] S64x256 P 0x00000000#32 hr hφ hacc) h1)
        (broadcast S64x256x1 (FloatOps.ofBits (F := Ideal) .f32 0x43000000#32))) h2)) (ix3 b r k)
      = P (ix3 b r k) - Ideal.div (∑ k' : Fin 128, P (ix3 b r k')) lanes := by
  rw [subf_apply, spread_apply, divf_apply, column_apply, laneSum]
  rfl

/-- The body's closing arithmetic over two lane sums `m1`, `m2` that are known (`s1`, `s2`): the operations are the
    extended reals' own. -/
theorem assemble (a m1 m2 g b s1 s2 : Ideal .f32) (h1 : m1 = s1) (h2 : m2 = s2) :
    FloatOps.addf (FloatOps.mulf (FloatOps.mulf (FloatOps.subf a (FloatOps.divf m1 (FloatOps.ofBits .f32 0x43000000#32)))
      (FloatOps.rsqrt (FloatOps.addf (FloatOps.divf m2 (FloatOps.ofBits .f32 0x43000000#32)) (FloatOps.ofBits .f32 0x3727C5AC#32)))) g) b
    = (a - Ideal.div s1 lanes) * Ideal.rsqrt (Ideal.div s2 lanes + eps) * g + b := by
  subst h1 h2; rfl

/-- ENTRY `(b, r, d)` OF THE STORED BLOCK is row `(b, r)` of the loaded block layer-normalised, at lane `d`, with the
    scale and the shift of lane `d`. -/
theorem block_apply (P0 : Vec Ideal S64x256x128 .f32) (P1 P2 : Vec Ideal S128 .f32) (b : Fin 64) (r : Fin 256) (d : Fin 128) :
    Cert.KernelIdeal.Value.E3 (F := Ideal) P0 P1 P2 (ix3 b r d)
      = layerNorm (fun k => P0 (ix3 b r k)) (P1 (ix1 d)) (P2 (ix1 d)) d := by
  unfold layerNorm rowVar rowMean
  dsimp only [Cert.KernelIdeal.Value.E3]
  have e0 : Value.ix3_0 (ix3 b r d) = ix3 b r d :=
    funext fun a => Fin.ext (by match a with | ⟨0, _⟩ => rfl | ⟨1, _⟩ => rfl | ⟨2, _⟩ => rfl)
  have e1 : Value.ix3_1 (ix3 b r d) = ix2 b r :=
    funext fun a => Fin.ext (by match a with | ⟨0, _⟩ => rfl | ⟨1, _⟩ => rfl)
  have e2 : Value.ix3_2 (ix3 b r d) = ix2 b r :=
    funext fun a => Fin.ext (by match a with | ⟨0, _⟩ => rfl | ⟨1, _⟩ => rfl)
  have e3 : Value.ix3_3 (ix3 b r d) = ix1 d := funext fun a => Fin.ext (by match a with | ⟨0, _⟩ => rfl)
  have e4 : Value.ix3_4 (ix3 b r d) = ix1 d := funext fun a => Fin.ext (by match a with | ⟨0, _⟩ => rfl)
  rw [e0, e1, e2, e3, e4, shapeCast_self]
  -- the first lane sum is the row's sum; the second is the sum of the squared deviations, entry by entry
  refine assemble _ _ _ _ _ _ _ (laneSum P0 _ _ _ b r) ?_
  refine (laneSum _ _ _ _ b r).trans (Finset.sum_congr rfl fun k _ => ?_)
  rw [mulf_apply]
  exact congrArg₂ (· * ·) (centred_apply P0 _ _ _ _ _ b r k) (centred_apply P0 _ _ _ _ _ b r k)

end Cert.KernelBlock

end
-- ==== Proof.KernelArray.lean ====
/-
  From blocks to the array: what the kernel's result array holds after the run.

  The grid has 8 points. At point `t` the pipeline stages rows `256·t … 256·t + 255` (second axis) of the embedded
  array, all 64 batches and all 128 lanes, together with the whole scale and shift vectors; the body leaves one
  [64, 256, 128] block, which is written back to the same rows of the result. Entry `(b, r, d)` of that block is row
  `(b, r)` of the staged block normalised (KernelBlock), and row `(b, r)` of the staged block IS row `(b, 256·t + r)`
  of the embedded array, so point `t` writes back exactly block `t` of the one whole-array function
  `layerNormRows rows scale shift` (`flushed_eq`). The 8 blocks tile the second axis (row `s` lies in the block of
  point `s / 256`), so every index is covered (`cover`) and the array ends holding that function (`final`, `run`).
-/
import proofs.«415692_j64450279244454_3_alg».proof.Proof.Gen.KernelIdeal.Value
import proofs.«415692_j64450279244454_3_alg».proof.Proof.KernelBlock
import Idealize.ShloMosaic.Lib.Pipeline.Value

noncomputable section

open scoped BigOperators

namespace Cert.KernelArray
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.RowNorm

variable (m : (ℓ : Loc nD τ sig) → Buf (Elt Ideal) ℓ) (ρ : Dev nD → PrngReg)

/-- The zero offsets of a rank-3 whole-buffer rectangle. -/
theorem hz3 : (![0, 0, 0] : Fin 3 → Nat) = fun _ => 0 := funext fun a => by fin_cases a <;> rfl
/-- The zero offset of a rank-1 whole-buffer rectangle. -/
theorem hz1 : (![0] : Fin 1 → Nat) = fun _ => 0 := funext fun a => by fin_cases a <;> rfl

/-- The embedded rows as the region finds them: what the host operations before the launch left. -/
abbrev rows (c : Dev nD) : SArr.Idx → EReal := V m c main_v0
/-- The per-lane scale as the region finds it. -/
abbrev scale (c : Dev nD) : SVec.Idx → EReal := V m c main_arg2
/-- The per-lane shift as the region finds it. -/
abbrev shift (c : Dev nD) : SVec.Idx → EReal := V m c main_arg3

/-- The index maps over the grid: the rows window and the result window sit at block `(0, t, 0)`, the two vectors at
    block `0`. -/
theorem idx_facts : ∀ t : Fin cfg0.N,
    win0_0.index t (0 : Fin 3) = 0 ∧ win0_0.index t (1 : Fin 3) = t.val ∧ win0_0.index t (2 : Fin 3) = 0
    ∧ win0_3.index t (0 : Fin 3) = 0 ∧ win0_3.index t (1 : Fin 3) = t.val ∧ win0_3.index t (2 : Fin 3) = 0
    ∧ win0_1.index t (0 : Fin 1) = 0 ∧ win0_2.index t (0 : Fin 1) = 0 :=
  (by decide +kernel : ∀ t : Fin grid0.N, _)

/-- WHAT POINT `t` WRITES BACK is block `t` of the rows normalised one by one. -/
theorem flushed_eq (c : Dev nD) (t : Fin cfg0.N) :
    (dats m 0 c).flushed 3 t
      = ((cfg0.win 3).blk t).view.read (Elt Ideal) (layerNormRows (rows m c) (scale m c) (shift m c)) := by
  rw [flushed3]
  unfold out0_3
  simp only [View.ld_unit_zero (S := S64x256x128) hz3, View.ld_unit_zero (S := S128) hz1]
  funext j
  obtain ⟨b, r, d, rfl⟩ : ∃ (b : Fin 64) (r : Fin 256) (d : Fin 128), j = ix3 b r d := ⟨j 0, j 1, j 2, eq_ix3 j⟩
  refine (canon3_eq (F := Ideal) (iblk m c 0 t) (iblk m c 1 t) (iblk m c 2 t) (ix3 b r d)).trans ?_
  rw [Cert.KernelBlock.block_apply]
  show _ = layerNormRows (rows m c) (scale m c) (shift m c) (((cfg0.win 3).blk t).view.emb (ix3 b r d))
  -- the block's entry (b, r, d) sits at array index (b, 256·t + r, d)
  obtain ⟨a0, a1, a2, o0, o1, o2, g0, s0⟩ := idx_facts t
  have ht : t.val < 8 := by have := t.isLt; have hN : cfg0.N = 8 := N_0; omega
  have hemb : ((cfg0.win 3).blk t).view.emb (ix3 b r d) = ix3 b (⟨t.val * 256 + r.val, by omega⟩ : Fin 2048) d := by
    funext a; apply Fin.ext
    match a with
    | ⟨0, _⟩ => show win0_3.index t (0 : Fin 3) * 64 + 1 * b.val = b.val; omega
    | ⟨1, _⟩ => show win0_3.index t (1 : Fin 3) * 256 + 1 * r.val = t.val * 256 + r.val; omega
    | ⟨2, _⟩ => show win0_3.index t (2 : Fin 3) * 128 + 1 * d.val = d.val; omega
  rw [hemb]
  unfold layerNormRows
  show layerNorm (fun k => iblk m c 0 t (ix3 b r k)) (iblk m c 1 t (ix1 d)) (iblk m c 2 t (ix1 d)) d
     = layerNorm (row (rows m c) b ⟨t.val * 256 + r.val, by omega⟩) (scale m c (ix1 d)) (shift m c (ix1 d)) d
  -- row (b, r) of the staged block is row (b, 256·t + r) of the embedded array; the vectors are staged whole
  have hrow : (fun k => iblk m c 0 t (ix3 b r k)) = row (rows m c) b ⟨t.val * 256 + r.val, by omega⟩ := by
    funext k
    show V m c main_v0 (((cfg0.win 0).blk t).view.emb (ix3 b r k)) = V m c main_v0 (ix3 b (⟨t.val * 256 + r.val, by omega⟩ : Fin 2048) k)
    congr 1; funext a; apply Fin.ext
    match a with
    | ⟨0, _⟩ => show win0_0.index t (0 : Fin 3) * 64 + 1 * b.val = b.val; omega
    | ⟨1, _⟩ => show win0_0.index t (1 : Fin 3) * 256 + 1 * r.val = t.val * 256 + r.val; omega
    | ⟨2, _⟩ => show win0_0.index t (2 : Fin 3) * 128 + 1 * k.val = k.val; omega
  have hg : iblk m c 1 t (ix1 d) = scale m c (ix1 d) := by
    show V m c main_arg2 (((cfg0.win 1).blk t).view.emb (ix1 d)) = V m c main_arg2 (ix1 d)
    congr 1; funext a; apply Fin.ext
    match a with | ⟨0, _⟩ => show win0_1.index t (0 : Fin 1) * 128 + 1 * d.val = d.val; omega
  have hs : iblk m c 2 t (ix1 d) = shift m c (ix1 d) := by
    show V m c main_arg3 (((cfg0.win 2).blk t).view.emb (ix1 d)) = V m c main_arg3 (ix1 d)
    congr 1; funext a; apply Fin.ext
    match a with | ⟨0, _⟩ => show win0_2.index t (0 : Fin 1) * 128 + 1 * d.val = d.val; omega
  rw [hrow, hg, hs]

/-- An index is in point `t`'s block iff each coordinate is in the block's range on its axis. -/
theorem mem_blk (t : Fin cfg0.N) (i : S64x2048x128.Idx) :
    i ∈ ((cfg0.win 3).blk t).view.set ↔ ∀ a : Fin 3, win0_3.index t a * S64x256x128.size a ≤ (i a).val
      ∧ (i a).val < win0_3.index t a * S64x256x128.size a + S64x256x128.size a := by
  show i ∈ ((View.whole main_v1).slice (win0_3.rect t)).set ↔ _
  rw [View.set_slice_whole, Rect.mem_set_unit]
  exact Iff.rfl

/-- Every index of the result lies in some point's block: row `s` in the block of point `s / 256`. -/
theorem cover (i : S64x2048x128.Idx) :
    ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 128 := (i 2).isLt
  have hN : cfg0.N = 8 := N_0
  obtain ⟨t, ht⟩ : ∃ t : Fin cfg0.N, t.val = (i 1).val / 256 := ⟨⟨(i 1).val / 256, by omega⟩, rfl⟩
  obtain ⟨_, _, _, o0, o1, o2, _, _⟩ := idx_facts t
  refine ⟨t, flush0_3 t, ?_⟩
  rw [mem_blk]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 256 ≤ (i 1).val ∧ (i 1).val < win0_3.index t (1 : Fin 3) * 256 + 256; omega
  | ⟨2, _⟩ => show win0_3.index t (2 : Fin 3) * 128 ≤ (i 2).val ∧ (i 2).val < win0_3.index t (2 : Fin 3) * 128 + 128; omega

/-- THE ARRAY after the run: the embedded rows normalised one by one. -/
theorem final (c : Dev nD) :
    (dats m 0 c).arrAt 3 cfg0.N = layerNormRows (rows m c) (scale m c) (shift m c) :=
  (dats m 0 c).arrAt_eq_of_cover 3 (layerNormRows (rows m c) (scale m c) (shift m c)) (fun t _ => flushed_eq m c t) cover

/-- The kernel's run, read: the result array at the embedded rows normalised with the scale and shift arguments, the
    arguments unchanged. -/
theorem run : θ_run defs (onTc (τ := τ) (main (F := Ideal))) ⟨m, fun _ => 0, ρ⟩ fun r => ∀ c : Dev nD,
      r.2.mem ((c : Thread nD τ).loc main_v1)
        = layerNormRows (rows m c) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      rw [(h c).1, final m c]
      show layerNormRows (rows m c) (V m c main_arg2) (V m c main_arg3) = _
      rw [V_main_arg2, V_main_arg3], (h c).2⟩)
    (run_blocks m ρ)

end Cert.KernelArray

end
-- ==== Proof.KernelRows.lean ====
/-
  The rows the kernel normalises: what its host operations leave before the launch.

  The kernel takes rows of the table by `jnp.take` in its default mode. For an index word `w` (read signed) it first
  counts a negative `w` from the end, `w' = w + 100000` if `w < 0` and `w' = w` otherwise (`wrapIds`); it gathers row `w'`
  (the gather itself clamps its start index into the table, `gatherRows`); and it keeps the gathered row only where
  `0 ≤ w' ≤ 99999` (`inRange`), putting a NaN word in every lane of the row elsewhere (`takeRows`). `rows_eq` reads
  this term off the program's host operations.
  When every index word lies in `[-100000, 100000)` the wrapped word lies in `[0, 99999]`: a negative word plus 100000
  does not wrap around at 32 bits, and a non-negative one is kept (`wrap_range`). So the test is 1 at every position,
  an `and`-fold of ones from one is one, and the take is the bare gather (`takeRows_eq`): the NaN fill is never chosen.
-/
import proofs.«415692_j64450279244454_3_alg».proof.Proof.Gen.KernelIdeal.Frame
import proofs.«415692_j64450279244454_3_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueIdx

noncomputable section

namespace Cert.KernelRows
open Idealize.ShloMosaic Idealize.ShloMosaic.TcCoe Idealize.SL.Sem Idealize.ShloMosaic.ValueIdx Idealize.ShloMosaic.StableHlo
open Cert.KernelIdeal Cert.KernelIdeal.Gen

variable {F : FTy → Type} [FloatOps F]

/-- Negative index words count from the end of the table: `w + 100000` where `w < 0` (signed), `w` elsewhere. -/
def wrapIds (x : IVec S64x2048 32) : IVec S64x2048 32 :=
  select (cmpi .slt x (broadcastInDim S64x2048 ![] bcast_S_S64x2048 (constantI S_ 32 0#32)))
    (addi x (broadcastInDim S64x2048 ![] bcast_S_S64x2048 (constantI S_ 32 100000#32))) x

/-- The wrapped words as a [64, 2048, 1] column of start indices. -/
def startIdx (x : IVec S64x2048 32) : IVec S64x2048x1 32 :=
  broadcastInDim S64x2048x1 ![0, 1] bcast_S64x2048_S64x2048x1_0_1 (wrapIds x)

/-- Position by position: is the wrapped word in `[0, 99999]` (signed)? -/
def inRangeCol (x : IVec S64x2048 32) : IVec S64x2048x1 1 :=
  andi (cmpi .sge (startIdx x) (broadcastInDim S64x2048x1 ![] bcast_S_S64x2048x1 (constantI S_ 32 0#32)))
    (cmpi .sle (startIdx x) (broadcastInDim S64x2048x1 ![0, 1, 2] bcast_S1x1x1_S64x2048x1_0_1_2
      (broadcastInDim S1x1x1 ![2] bcast_S1_S1x1x1_2 (constantI S1 32 99999#32))))

/-- The same test with the unit axis folded away by `and` from 1. -/
def inRange (x : IVec S64x2048 32) : IVec S64x2048 1 :=
  Host.reduce IntOp.andi (inRangeCol x) (constantI S_ 1 1#1) reducesTo_S64x2048x1_S64x2048_d2 h_S_

/-- The table's rows at the wrapped words (the gather clamps a start index into the table). -/
def gatherRows (tbl : FVec F S100000x128 .f32) (x : IVec S64x2048 32) : FVec F S64x2048x128 .f32 :=
  Host.gather gather_S100000x128_S64x2048x1_S64x2048x128_2_0_n_n_0_2_1128 tbl (startIdx x)

/-- The gathered row where the wrapped word is in range, a NaN word in every lane elsewhere. -/
def takeRows (tbl : FVec F S100000x128 .f32) (x : IVec S64x2048 32) : FVec F S64x2048x128 .f32 :=
  select (broadcastInDim S64x2048x128 ![0, 1] bcast_S64x2048_S64x2048x128_0_1 (inRange x)) (gatherRows tbl x)
    (broadcastInDim S64x2048x128 ![] bcast_S_S64x2048x128 (constant S_ .f32 0x7FC00000#32))

variable (m : (ℓ : Loc nD τ sig) → Buf (Elt F) ℓ)

set_option maxHeartbeats 1000000 in
set_option maxRecDepth 200000 in
/-- WHAT THE REGION FINDS in the rows buffer: the take of the table argument at the index argument. -/
theorem rows_eq (c : Dev nD) :
    (V m c main_v0 : S64x2048x128.Idx → Elt F .f32)
      = takeRows (m ((c : Thread nD τ).loc main_arg1)) (m ((c : Thread nD τ).loc main_arg0)) := by
  dsimp only [Gen.V, Gen.hostOps0]
  after_results_simp
  unfold takeRows gatherRows inRange inRangeCol startIdx wrapIds
  rfl

/-- A word in `[-100000, 100000)` wraps to a word in `[0, 99999]`: for a negative word the sum with 100000 lies in
    `[0, 100000)`, far from the 32-bit wrap-around; a non-negative word is unchanged. -/
theorem wrap_range (w : BitVec 32) (h1 : IntOp.cmpi .sge w 4294867296#32 = 1#1) (h2 : IntOp.cmpi .slt w 100000#32 = 1#1) :
    IntOp.cmpi .sge (Scalar.select (IntOp.cmpi .slt w 0#32) (IntOp.addi w 100000#32) w) 0#32 = 1#1
    ∧ IntOp.cmpi .sle (Scalar.select (IntOp.cmpi .slt w 0#32) (IntOp.addi w 100000#32) w) 99999#32 = 1#1 := by
  rw [IntOp.cmpi_sge] at h1 ⊢
  rw [IntOp.cmpi_slt] at h2
  rw [IntOp.cmpi_sle]
  have c1 : (4294867296#32 : BitVec 32).toInt = -100000 := by decide
  have c2 : (100000#32 : BitVec 32).toInt = 100000 := by decide
  have c3 : (0#32 : BitVec 32).toInt = 0 := by decide
  have c4 : (99999#32 : BitVec 32).toInt = 99999 := by decide
  rw [c1] at h1; rw [c2] at h2; rw [c3, c4]
  by_cases hneg : w.toInt < 0
  · have hs : IntOp.cmpi .slt w 0#32 = 1#1 := IntOp.cmpi_slt.mpr (by rw [c3]; exact hneg)
    rw [hs]
    show 0 ≤ (Scalar.select 1#1 (w + 100000#32) w).toInt ∧ (Scalar.select 1#1 (w + 100000#32) w).toInt ≤ 99999
    rw [ValueIdx.select_one, BitVec.toInt_add, c2]
    have hb : (w.toInt + 100000).bmod (2 ^ 32) = w.toInt + 100000 :=
      Int.bmod_eq_of_le_mul_two (by norm_num; omega) (by norm_num; omega)
    rw [hb]
    omega
  · have hs : IntOp.cmpi .slt w 0#32 = 0#1 :=
      ValueIdx.eq_zero_of_ne_one (fun h => hneg (by have := IntOp.cmpi_slt.mp h; rwa [c3] at this))
    rw [hs, ValueIdx.select_zero]
    omega

/-- The wrap at one position, the two broadcast constants read. -/
theorem wrapIds_apply (x : IVec S64x2048 32) (i : S64x2048.Idx) :
    wrapIds x i = Scalar.select (IntOp.cmpi .slt (x i) 0#32) (IntOp.addi (x i) 100000#32) (x i) := by
  have b0 := Predicate.bcast_scalar (t := S64x2048) bcast_S_S64x2048 h_S_ (constantI S_ 32 0#32) i
  have b1 := Predicate.bcast_scalar (t := S64x2048) bcast_S_S64x2048 h_S_ (constantI S_ 32 100000#32) i
  show Scalar.select (IntOp.cmpi .slt (x i) (broadcastInDim S64x2048 ![] bcast_S_S64x2048 (constantI S_ 32 0#32) i))
      (IntOp.addi (x i) (broadcastInDim S64x2048 ![] bcast_S_S64x2048 (constantI S_ 32 100000#32) i)) (x i) = _
  rw [b0, b1]
  rfl

/-- The column of start indices at `(p, q, 0)` is the wrapped word at `(p, q)`. -/
theorem startIdx_apply (x : IVec S64x2048 32) (p : Fin 64) (q : Fin 2048) (z : Fin 1) :
    startIdx x (ix3 p q z) = wrapIds x (ix2 p q) :=
  broadcastInDim_apply _ bcast_S64x2048_S64x2048x1_0_1 (wrapIds x) (ix3 p q z) (ix2 p q) (fun a => match a with
    | ⟨0, _⟩ => by show p.val = if (64 : Nat) = 1 then 0 else p.val; rw [if_neg (by decide)]
    | ⟨1, _⟩ => by show q.val = if (2048 : Nat) = 1 then 0 else q.val; rw [if_neg (by decide)])

/-- With every index word in `[-100000, 100000)`, the range test is 1 at every position. -/
theorem inRangeCol_eq (x : IVec S64x2048 32)
    (hx : ∀ i, IntOp.cmpi .sge (x i) 4294867296#32 = 1#1 ∧ IntOp.cmpi .slt (x i) 100000#32 = 1#1) :
    inRangeCol x = fun _ => 1#1 := by
  funext j
  obtain ⟨p, q, z, rfl⟩ : ∃ (p : Fin 64) (q : Fin 2048) (z : Fin 1), j = ix3 p q z := ⟨j 0, j 1, j 2, eq_ix3 j⟩
  have lo := Predicate.bcast_scalar (t := S64x2048x1) bcast_S_S64x2048x1 h_S_ (constantI S_ 32 0#32) (ix3 p q z)
  have hi : broadcastInDim S64x2048x1 ![0, 1, 2] bcast_S1x1x1_S64x2048x1_0_1_2
      (broadcastInDim S1x1x1 ![2] bcast_S1_S1x1x1_2 (constantI S1 32 99999#32)) (ix3 p q z) = 99999#32 :=
    (broadcastInDim_apply _ bcast_S1x1x1_S64x2048x1_0_1_2 _ (ix3 p q z) (ix3 (0 : Fin 1) (0 : Fin 1) (0 : Fin 1)) (fun a => match a with
      | ⟨0, _⟩ => by show 0 = if (1 : Nat) = 1 then 0 else p.val; rw [if_pos rfl]
      | ⟨1, _⟩ => by show 0 = if (1 : Nat) = 1 then 0 else q.val; rw [if_pos rfl]
      | ⟨2, _⟩ => by show 0 = if (1 : Nat) = 1 then 0 else z.val; rw [if_pos rfl])).trans
    (broadcastInDim_apply _ bcast_S1_S1x1x1_2 _ (ix3 (0 : Fin 1) (0 : Fin 1) (0 : Fin 1)) (ix1 (0 : Fin 1)) (fun a => match a with
      | ⟨0, _⟩ => by show 0 = if (1 : Nat) = 1 then 0 else 0; rw [if_pos rfl]))
  show IntOp.andi (IntOp.cmpi .sge (startIdx x (ix3 p q z)) (broadcastInDim S64x2048x1 ![] bcast_S_S64x2048x1 (constantI S_ 32 0#32) (ix3 p q z)))
      (IntOp.cmpi .sle (startIdx x (ix3 p q z)) (broadcastInDim S64x2048x1 ![0, 1, 2] bcast_S1x1x1_S64x2048x1_0_1_2
        (broadcastInDim S1x1x1 ![2] bcast_S1_S1x1x1_2 (constantI S1 32 99999#32)) (ix3 p q z))) = 1#1
  rw [lo, hi, startIdx_apply, wrapIds_apply]
  obtain ⟨h1, h2⟩ := hx (ix2 p q)
  exact IntOp.andi_eq_one.mpr (wrap_range _ h1 h2)

/-- An `and`-fold of ones from one is one. -/
theorem foldl_andi_ones {ι : Type} (l : List ι) : l.foldl (fun r (_ : ι) => IntOp.andi r 1#1) 1#1 = 1#1 := by
  induction l with
  | nil => rfl
  | cons a l ih => exact ih

/-- So is the folded test. -/
theorem inRange_eq (x : IVec S64x2048 32)
    (hx : ∀ i, IntOp.cmpi .sge (x i) 4294867296#32 = 1#1 ∧ IntOp.cmpi .slt (x i) 100000#32 = 1#1) :
    inRange x = fun _ => 1#1 := by
  funext j
  unfold inRange
  rw [inRangeCol_eq x hx, Host.reduce_eq_foldl]
  exact foldl_andi_ones _

/-- THE TAKE IS THE GATHER when every index word is in range: the fill is chosen nowhere. -/
theorem takeRows_eq (tbl : FVec F S100000x128 .f32) (x : IVec S64x2048 32)
    (hx : ∀ i, IntOp.cmpi .sge (x i) 4294867296#32 = 1#1 ∧ IntOp.cmpi .slt (x i) 100000#32 = 1#1) :
    takeRows tbl x = gatherRows tbl x := by
  unfold takeRows
  rw [inRange_eq x hx]
  funext i
  rw [select_apply]
  exact ValueIdx.select_one _ _

end Cert.KernelRows

end
-- ==== Proof.IndexRange.lean ====
/-
  The precondition, read: every index word lies in `[-100000, 100000)`.

  The precondition is a conjunction of five `all`s, each printed as an `and`-reduction from 1 over every axis: three
  say the float inputs are finite, the last two that every index word `w` satisfies `-100000 ≤ w` and `w < 100000`
  as signed 32-bit integers (the word `4294867296` is `-100000` at 32 bits). If the conjunction is 1 then each
  conjunct is 1, and an `and`-reduction that is 1 had a 1 at every position.
-/
import proofs.«415692_j64450279244454_3_alg».proof.Pre_finite_inputs
import proofs.«415692_j64450279244454_3_alg».proof.Proof.Gen.Pre_finite_inputs
import Idealize.ShloMosaic.Lib.ReduceAll
import Idealize.ShloMosaic.Lib.ValueIdx
import Idealize.ShloMosaic.Lib.StableHlo.Predicate

noncomputable section

namespace Cert.IndexRange
open Idealize.ShloMosaic Cert.Pre_finite_inputs

/-- The scalar shape has one index. -/
instance : Subsingleton S_.Idx := ⟨fun a b => funext fun d => d.elim0⟩

/-- FROM THE PRECONDITION: at every position the index word is at least `-100000` and below `100000`, signed. -/
theorem range_of_pre {F : FTy → Type} [FloatOps F] (x : IVec S64x2048 32) (tbl : FVec F S100000x128 .f32) (g b : FVec F S128 .f32)
    (h : fn (F := F) x tbl g b = fun _ => 1#1) (i : S64x2048.Idx) :
    IntOp.cmpi .sge (x i) 4294867296#32 = 1#1 ∧ IntOp.cmpi .slt (x i) 100000#32 = 1#1 := by
  have h0 := congrFun h ValueIdx.ix0
  dsimp only [fn, fn_part1] at h0
  obtain ⟨h17, h20⟩ := IntOp.andi_eq_one.mp h0
  obtain ⟨_, h16⟩ := IntOp.andi_eq_one.mp h17
  have e16 := Host.reduce_andi_all _ _ _ _ _ h16 i
  have e20 := Host.reduce_andi_all _ _ _ _ _ h20 i
  constructor
  · have hb := StableHlo.Predicate.bcast_scalar (t := S64x2048) Facts.bcast_S_S64x2048 Facts.h_S_ (constantI S_ 32 4294867296#32) i
    have e : IntOp.cmpi .sge (x i) (broadcastInDim S64x2048 ![] Facts.bcast_S_S64x2048 (constantI S_ 32 4294867296#32) i) = 1#1 := e16
    rw [hb] at e; exact e
  · have hb := StableHlo.Predicate.bcast_scalar (t := S64x2048) Facts.bcast_S_S64x2048 Facts.h_S_ (constantI S_ 32 100000#32) i
    have e : IntOp.cmpi .slt (x i) (broadcastInDim S64x2048 ![] Facts.bcast_S_S64x2048 (constantI S_ 32 100000#32) i) = 1#1 := e20
    rw [hb] at e; exact e

end Cert.IndexRange

end
-- ==== Proof.ReferenceRows.lean ====
/-
  The reference, read: its result is its gathered rows normalised one by one.

  After the gather the reference is layer normalisation written with whole-array operations: a sum over the last
  axis from the initial value 0, kept as a [64, 2048, 1] column, divided by 128 and spread back over the lanes; the
  deviations squared and summed the same way; the inverse square root of variance plus ε spread back; scale and shift
  laid along the last axis. Read at `(b, s, d)`, every layout operation lands on row `(b, s)` (the column's entry
  `(b, s, 0)`) or on lane `d`, and `0 + ∑` is the sum, so the entry is `layerNorm` of row `(b, s)` of the gathered
  array at lane `d` with the scale and shift of lane `d`.
-/
import proofs.«415692_j64450279244454_3_alg».proof.Proof.Gen.ReferenceIdeal.Read
import proofs.«415692_j64450279244454_3_alg».proof.Proof.RowNorm
import Idealize.ShloMosaic.PureOps.Ideal.Laws

noncomputable section

open scoped BigOperators

namespace Cert.ReferenceRows
open Idealize.ShloMosaic Idealize.ShloMosaic.ValueIdx Cert.ReferenceIdeal Cert.ReferenceIdeal.Gen Cert.ReferenceIdeal.Read Cert.RowNorm

/-- THE REFERENCE'S RESULT, as a function of the index words `x0`, the table `x1`, the scale `x2` and the shift `x3`:
    its gathered rows (`val_main_v6 x0 x1`) normalised one by one. -/
theorem result_eq (x0 : IVec S64x2048 32) (x1 : FVec Ideal S100000x128 .f32) (x2 x3 : FVec Ideal S128 .f32) :
    val_main_v30 (F := Ideal) x0 x1 x2 x3 = layerNormRows (val_main_v6 (F := Ideal) x0 x1) x2 x3 := by
  funext i
  obtain ⟨b, s, d, rfl⟩ : ∃ (b : Fin 64) (s : Fin 2048) (d : Fin 128), i = ix3 b s d := ⟨i 0, i 1, i 2, eq_ix3 i⟩
  simp only [val_main_v30_apply, val_main_v29_apply, val_main_v28_apply, val_main_v27_apply, val_main_v26_apply, val_main_v25_apply,
    val_main_v24_apply, val_main_v23_apply, val_main_v22_apply, val_main_v21_apply, val_main_v20_apply, val_main_cst_4_apply,
    val_main_v19_apply, val_main_v18_apply, val_main_v17_apply, val_main_v16_apply, val_main_cst_3_apply, val_main_v15_apply,
    val_main_v14_apply, val_main_cst_2_apply, val_main_v13_apply, val_main_v12_apply, val_main_v11_apply, val_main_v10_apply,
    val_main_v9_apply, val_main_cst_1_apply, val_main_v8_apply, val_main_v7_apply, val_main_cst_apply]
  -- the composed index maps: a column entry (b, s, 0) back to row (b, s); a lane back to the lane
  have i1 : ∀ k : Fin 128, idx_main_v7 (idx_main_v8 (idx_main_v18 (ix3 b s d))) k = ix3 b s k := fun k =>
    funext fun a => Fin.ext (by match a with | ⟨0, _⟩ => rfl | ⟨1, _⟩ => rfl | ⟨2, _⟩ => rfl)
  have i2 : ∀ k : Fin 128, idx_main_v14 (idx_main_v15 (idx_main_v23 (ix3 b s d))) k = ix3 b s k := fun k =>
    funext fun a => Fin.ext (by match a with | ⟨0, _⟩ => rfl | ⟨1, _⟩ => rfl | ⟨2, _⟩ => rfl)
  have i3 : ∀ k k' : Fin 128, idx_main_v7 (idx_main_v8 (idx_main_v11 (ix3 b s k))) k' = ix3 b s k' := fun k k' =>
    funext fun a => Fin.ext (by match a with | ⟨0, _⟩ => rfl | ⟨1, _⟩ => rfl | ⟨2, _⟩ => rfl)
  have i4 : idx_main_v25 (idx_main_v26 (ix3 b s d)) = ix1 d :=
    funext fun a => Fin.ext (by match a with | ⟨0, _⟩ => rfl)
  have i5 : idx_main_v28 (idx_main_v29 (ix3 b s d)) = ix1 d :=
    funext fun a => Fin.ext (by match a with | ⟨0, _⟩ => rfl)
  simp only [i1, i2, i3, i4, i5, Ideal.ofBits_def, Ideal.ofBits_zero_f32, zero_add]
  rfl

end Cert.ReferenceRows

end
-- ==== Proof.lean ====
/-
  An embedding lookup followed by layer normalisation: the Pallas kernel against its jnp reference, over the
  extended reals.

  Both programs take index words `x : i32[64, 2048]`, a table `[100000, 128]`, a scale and a shift `[128]`, gather
  one table row per index, and layer-normalise each gathered row over its 128 lanes:
  `(v - μ) · (σ² + ε)^(-1/2) · scale + shift`, `μ` the row's mean and `σ²` its biased variance.

  * The reference indexes `table[x]`: a negative word counts from the end and the gather clamps its start index. It
    then normalises with whole-array operations (ReferenceRows).
  * The kernel takes the rows by `jnp.take`, which wraps negatives the same way, gathers the same way, and THEN
    replaces a row whose wrapped index is outside `[0, 99999]` by NaN words; a pallas_call over 8 blocks of 256 rows
    normalises them (KernelBlock: one block; KernelArray: the 8 blocks tile the array).
  Out of range the two programs differ (a clamped row against a NaN row), so the claim is stated on the domain where
  the reference's own indexing is in range: every index word in `[-100000, 100000)` (IndexRange reads this off the
  precondition). There the kernel's range test is 1 everywhere and its rows are the bare gather (KernelRows), the
  same term as the reference's gather (`gather_eq`). Both results are then ONE function, `layerNormRows` of the same
  rows, scale and shift (RowNorm): the two normalisations are the same expression operation for operation, so no
  law of arithmetic and no finiteness of the table is used.

  The frames of the two kernel programs are the generated class-A frames; the reference's is its generated run with
  the result dropped; the idealization rewrote nothing, so `preserves` is `True`.
-/
import proofs.«415692_j64450279244454_3_alg».proof.Defs
import proofs.«415692_j64450279244454_3_alg».proof.Proof.Gen.Kernel
import proofs.«415692_j64450279244454_3_alg».proof.Proof.Gen.Kernel.Skeleton
import proofs.«415692_j64450279244454_3_alg».proof.Proof.Gen.Kernel.Launch
import proofs.«415692_j64450279244454_3_alg».proof.Proof.Gen.Kernel.Points
import proofs.«415692_j64450279244454_3_alg».proof.Proof.Gen.Kernel.Frame
import proofs.«415692_j64450279244454_3_alg».proof.Proof.Gen.KernelIdeal
import proofs.«415692_j64450279244454_3_alg».proof.Proof.Gen.KernelIdeal.Skeleton
import proofs.«415692_j64450279244454_3_alg».proof.Proof.Gen.KernelIdeal.Launch
import proofs.«415692_j64450279244454_3_alg».proof.Proof.Gen.KernelIdeal.Points
import proofs.«415692_j64450279244454_3_alg».proof.Proof.Gen.KernelIdeal.Frame
import proofs.«415692_j64450279244454_3_alg».proof.Proof.Gen.ReferenceIdeal
import proofs.«415692_j64450279244454_3_alg».proof.Proof.Gen.Pre_finite_inputs
import proofs.«415692_j64450279244454_3_alg».proof.Proof.Gen.KernelIdeal.Value
import proofs.«415692_j64450279244454_3_alg».proof.Proof.Gen.ReferenceIdeal.Run
import proofs.«415692_j64450279244454_3_alg».proof.Proof.Gen.ReferenceIdeal.Read
import proofs.«415692_j64450279244454_3_alg».proof.Proof.RowNorm
import proofs.«415692_j64450279244454_3_alg».proof.Proof.KernelBlock
import proofs.«415692_j64450279244454_3_alg».proof.Proof.KernelArray
import proofs.«415692_j64450279244454_3_alg».proof.Proof.KernelRows
import proofs.«415692_j64450279244454_3_alg».proof.Proof.IndexRange
import proofs.«415692_j64450279244454_3_alg».proof.Proof.ReferenceRows
import Idealize.ShloMosaic.Adequacy
import Idealize.ShloMosaic.Init

noncomputable section

namespace Cert.Proof

open Idealize.ShloMosaic Idealize.ShloMosaic.TcCoe Idealize.SL.Sem Cert.RowNorm

/-- The kernel's bare gather and the reference's gather are one term: the same wrap of the index words, the same
    column of start indices, the same gather of the table. -/
theorem gather_eq (x : IVec Cert.KernelIdeal.S64x2048 32) (tbl : FVec Ideal Cert.KernelIdeal.S100000x128 .f32) :
    Cert.KernelRows.gatherRows (F := Ideal) tbl x = Cert.ReferenceIdeal.Read.val_main_v6 (F := Ideal) x tbl := rfl

/-- Under the precondition the rows the kernel's region finds are the reference's gathered rows. -/
theorem rows_eq_gather (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelArray.rows m c
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show Cert.KernelIdeal.Gen.V m c Cert.KernelIdeal.main_v0 = _
  rw [Cert.KernelRows.rows_eq m c,
    Cert.KernelRows.takeRows_eq _ _ (Cert.IndexRange.range_of_pre _ _ _ _ (hpre c))]
  exact gather_eq _ _

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the gathered rows normalised one by one: the kernel's result array by its run read block by
    block, the reference's by its run read operation by operation, from memories that agree on the four arguments. -/
theorem algebraic : Cert.algebraic_KernelIdeal_ReferenceIdeal := by
  intro m ρ m' ρ' hpre hagree
  refine ⟨fun c => layerNormRows
      (Cert.ReferenceIdeal.Read.val_main_v6 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelArray.run m ρ)
    rw [rows_eq_gather m hpre c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, Cert.ReferenceRows.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
